-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x28x28 : Shape := ⟨4, ![16, 64, 28, 28]⟩
abbrev S64x64x3x3 : Shape := ⟨4, ![64, 64, 3, 3]⟩
abbrev S_ : Shape := ⟨0, ![]⟩

class Facts : Prop where
  bcast_S_S16x64x28x28 : S_.BroadcastsInDim S16x64x28x28 (![] : Fin 0 → Fin S16x64x28x28.rank)
  reducesTo_S16x64x28x28_S_d0_1_2_3 : S16x64x28x28.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S16x64x28x28 .f32) (main_arg1 : FVec F S64x64x3x3 .f32) : IVec S_ 1 :=
  let main_v0 : FVec F S16x64x28x28 .f32 := Host.absf main_arg0
  let main_cst : FVec F S_ .f32 := constant S_ .f32 0x7F800000#32
  let main_v1 : FVec F S16x64x28x28 .f32 := broadcastInDim S16x64x28x28 ![] bcast_S_S16x64x28x28 main_cst
  let main_v2 : IVec S16x64x28x28 1 := cmpf .olt main_v0 main_v1
  let main_c : IVec S_ 1 := constantI S_ 1 1#1
  let main_v3 : IVec S_ 1 := (fun x v => Host.reduce IntOp.andi x v reducesTo_S16x64x28x28_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S16x64x28x28 : Shape := ⟨4, ![16, 64, 28, 28]⟩
abbrev S64x64x3x3 : Shape := ⟨4, ![64, 64, 3, 3]⟩
abbrev S_ : Shape := ⟨0, ![]⟩
abbrev S16x64x30x30 : Shape := ⟨4, ![16, 64, 30, 30]⟩
abbrev S3x3x64x64 : Shape := ⟨4, ![3, 3, 64, 64]⟩
abbrev S1x64x30x30 : Shape := ⟨4, ![1, 64, 30, 30]⟩
abbrev S3x3x32x64 : Shape := ⟨4, ![3, 3, 32, 64]⟩
abbrev S1x32x28x28 : Shape := ⟨4, ![1, 32, 28, 28]⟩
abbrev S32x28x28 : Shape := ⟨3, ![32, 28, 28]⟩
abbrev S1x16x28x28 : Shape := ⟨4, ![1, 16, 28, 28]⟩
abbrev S16x28x28 : Shape := ⟨3, ![16, 28, 28]⟩
abbrev S1x1x32x16 : Shape := ⟨4, ![1, 1, 32, 16]⟩
abbrev S32x16 : Shape := ⟨2, ![32, 16]⟩
abbrev S32x16x1x1 : Shape := ⟨4, ![32, 16, 1, 1]⟩
abbrev S32x16x28x28 : Shape := ⟨4, ![32, 16, 28, 28]⟩

abbrev nBuf : Space → Nat
  | .hbm => 7
  | .vmem => 6
  | .smem => 0
  | _ => 0

abbrev bufTy : (tb : Table) → Fin (tcTables nBuf tb) → BufTy
  | .hbm, ⟨0, _⟩ => ⟨S16x64x28x28, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S16x64x30x30, .f32⟩
  | .hbm, ⟨5, _⟩ => ⟨S3x3x64x64, .f32⟩
  | .hbm, ⟨6, _⟩ => ⟨S16x64x28x28, .f32⟩
  | .local _ .vmem, ⟨0, _⟩ => ⟨S1x64x30x30, .f32⟩
  | .local _ .vmem, ⟨1, _⟩ => ⟨S1x64x30x30, .f32⟩
  | .local _ .vmem, ⟨2, _⟩ => ⟨S3x3x32x64, .f32⟩
  | .local _ .vmem, ⟨3, _⟩ => ⟨S3x3x32x64, .f32⟩
  | .local _ .vmem, ⟨4, _⟩ => ⟨S1x32x28x28, .f32⟩
  | .local _ .vmem, ⟨5, _⟩ => ⟨S1x32x28x28, .f32⟩
  | _, _ => ⟨S16x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x30x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x3x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x28x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S16x64x28x28_S16x64x30x30_000_000_110_110 : S16x64x28x28.Pads (![0, 0, 1, 1] : Fin 4 → Nat) ![0, 0, 1, 1] ![0, 0, 0, 0] S16x64x30x30
  h_S_ : 0 < S_.numel
  transposes_S64x64x3x3_S3x3x64x64_2_3_0_1 : S64x64x3x3.Transposes [2, 3, 0, 1] S3x3x64x64
  inb_S1x64x30x30_S1x16x28x28_0_0_0_0 : ∀ a, (![0, 0, 0, 0] : Fin 4 → Nat) a + S1x16x28x28.size a ≤ S1x64x30x30.size a
  h_S1x16x28x28 : 0 < S1x16x28x28.numel
  shapeCasts_S1x16x28x28_S16x28x28 : S1x16x28x28.ShapeCasts S16x28x28
  inb_S3x3x32x64_S1x1x32x16_0_0_0_0 : ∀ a, (![0, 0, 0, 0] : Fin 4 → Nat) a + S1x1x32x16.size a ≤ S3x3x32x64.size a
  h_S1x1x32x16 : 0 < S1x1x32x16.numel
  shapeCasts_S1x1x32x16_S32x16 : S1x1x32x16.ShapeCasts S32x16
  shapeCasts_S16x28x28_S1x16x28x28 : S16x28x28.ShapeCasts S1x16x28x28
  shapeCasts_S32x16_S32x16x1x1 : S32x16.ShapeCasts S32x16x1x1
  broadcasts_S1x16x28x28_S32x16x28x28 : S1x16x28x28.Broadcasts S32x16x28x28
  broadcasts_S32x16x1x1_S32x16x28x28 : S32x16x1x1.Broadcasts S32x16x28x28
  reduces_S32x16x28x28_S32x28x28 : S32x16x28x28.Reduces [1] S32x28x28
  inb_S1x64x30x30_S1x16x28x28_0_16_0_0 : ∀ a, (![0, 16, 0, 0] : Fin 4 → Nat) a + S1x16x28x28.size a ≤ S1x64x30x30.size a
  inb_S3x3x32x64_S1x1x32x16_0_0_0_16 : ∀ a, (![0, 0, 0, 16] : Fin 4 → Nat) a + S1x1x32x16.size a ≤ S3x3x32x64.size a
  inb_S1x64x30x30_S1x16x28x28_0_32_0_0 : ∀ a, (![0, 32, 0, 0] : Fin 4 → Nat) a + S1x16x28x28.size a ≤ S1x64x30x30.size a
  inb_S3x3x32x64_S1x1x32x16_0_0_0_32 : ∀ a, (![0, 0, 0, 32] : Fin 4 → Nat) a + S1x1x32x16.size a ≤ S3x3x32x64.size a
  inb_S1x64x30x30_S1x16x28x28_0_48_0_0 : ∀ a, (![0, 48, 0, 0] : Fin 4 → Nat) a + S1x16x28x28.size a ≤ S1x64x30x30.size a
  inb_S3x3x32x64_S1x1x32x16_0_0_0_48 : ∀ a, (![0, 0, 0, 48] : Fin 4 → Nat) a + S1x1x32x16.size a ≤ S3x3x32x64.size a
  inb_S1x64x30x30_S1x16x28x28_0_0_0_1 : ∀ a, (![0, 0, 0, 1] : Fin 4 → Nat) a + S1x16x28x28.size a ≤ S1x64x30x30.size a
  inb_S3x3x32x64_S1x1x32x16_0_1_0_0 : ∀ a, (![0, 1, 0, 0] : Fin 4 → Nat) a + S1x1x32x16.size a ≤ S3x3x32x64.size a
  inb_S1x64x30x30_S1x16x28x28_0_16_0_1 : ∀ a, (![0, 16, 0, 1] : Fin 4 → Nat) a + S1x16x28x28.size a ≤ S1x64x30x30.size a
  inb_S3x3x32x64_S1x1x32x16_0_1_0_16 : ∀ a, (![0, 1, 0, 16] : Fin 4 → Nat) a + S1x1x32x16.size a ≤ S3x3x32x64.size a
  inb_S1x64x30x30_S1x16x28x28_0_32_0_1 : ∀ a, (![0, 32, 0, 1] : Fin 4 → Nat) a + S1x16x28x28.size a ≤ S1x64x30x30.size a
  inb_S3x3x32x64_S1x1x32x16_0_1_0_32 : ∀ a, (![0, 1, 0, 32] : Fin 4 → Nat) a + S1x1x32x16.size a ≤ S3x3x32x64.size a
  inb_S1x64x30x30_S1x16x28x28_0_48_0_1 : ∀ a, (![0, 48, 0, 1] : Fin 4 → Nat) a + S1x16x28x28.size a ≤ S1x64x30x30.size a
  inb_S3x3x32x64_S1x1x32x16_0_1_0_48 : ∀ a, (![0, 1, 0, 48] : Fin 4 → Nat) a + S1x1x32x16.size a ≤ S3x3x32x64.size a
  inb_S1x64x30x30_S1x16x28x28_0_0_0_2 : ∀ a, (![0, 0, 0, 2] : Fin 4 → Nat) a + S1x16x28x28.size a ≤ S1x64x30x30.size a
  inb_S3x3x32x64_S1x1x32x16_0_2_0_0 : ∀ a, (![0, 2, 0, 0] : Fin 4 → Nat) a + S1x1x32x16.size a ≤ S3x3x32x64.size a
  inb_S1x64x30x30_S1x16x28x28_0_16_0_2 : ∀ a, (![0, 16, 0, 2] : Fin 4 → Nat) a + S1x16x28x28.size a ≤ S1x64x30x30.size a
  inb_S3x3x32x64_S1x1x32x16_0_2_0_16 : ∀ a, (![0, 2, 0, 16] : Fin 4 → Nat) a + S1x1x32x16.size a ≤ S3x3x32x64.size a
  inb_S1x64x30x30_S1x16x28x28_0_32_0_2 : ∀ a, (![0, 32, 0, 2] : Fin 4 → Nat) a + S1x16x28x28.size a ≤ S1x64x30x30.size a
  inb_S3x3x32x64_S1x1x32x16_0_2_0_32 : ∀ a, (![0, 2, 0, 32] : Fin 4 → Nat) a + S1x1x32x16.size a ≤ S3x3x32x64.size a
  inb_S1x64x30x30_S1x16x28x28_0_48_0_2 : ∀ a, (![0, 48, 0, 2] : Fin 4 → Nat) a + S1x16x28x28.size a ≤ S1x64x30x30.size a
  inb_S3x3x32x64_S1x1x32x16_0_2_0_48 : ∀ a, (![0, 2, 0, 48] : Fin 4 → Nat) a + S1x1x32x16.size a ≤ S3x3x32x64.size a
  inb_S1x64x30x30_S1x16x28x28_0_0_1_0 : ∀ a, (![0, 0, 1, 0] : Fin 4 → Nat) a + S1x16x28x28.size a ≤ S1x64x30x30.size a
  inb_S3x3x32x64_S1x1x32x16_1_0_0_0 : ∀ a, (![1, 0, 0, 0] : Fin 4 → Nat) a + S1x1x32x16.size a ≤ S3x3x32x64.size a
  inb_S1x64x30x30_S1x16x28x28_0_16_1_0 : ∀ a, (![0, 16, 1, 0] : Fin 4 → Nat) a + S1x16x28x28.size a ≤ S1x64x30x30.size a
  inb_S3x3x32x64_S1x1x32x16_1_0_0_16 : ∀ a, (![1, 0, 0, 16] : Fin 4 → Nat) a + S1x1x32x16.size a ≤ S3x3x32x64.size a
  inb_S1x64x30x30_S1x16x28x28_0_32_1_0 : ∀ a, (![0, 32, 1, 0] : Fin 4 → Nat) a + S1x16x28x28.size a ≤ S1x64x30x30.size a
  inb_S3x3x32x64_S1x1x32x16_1_0_0_32 : ∀ a, (![1, 0, 0, 32] : Fin 4 → Nat) a + S1x1x32x16.size a ≤ S3x3x32x64.size a
  inb_S1x64x30x30_S1x16x28x28_0_48_1_0 : ∀ a, (![0, 48, 1, 0] : Fin 4 → Nat) a + S1x16x28x28.size a ≤ S1x64x30x30.size a
  inb_S3x3x32x64_S1x1x32x16_1_0_0_48 : ∀ a, (![1, 0, 0, 48] : Fin 4 → Nat) a + S1x1x32x16.size a ≤ S3x3x32x64.size a
  inb_S1x64x30x30_S1x16x28x28_0_0_1_1 : ∀ a, (![0, 0, 1, 1] : Fin 4 → Nat) a + S1x16x28x28.size a ≤ S1x64x30x30.size a
  inb_S3x3x32x64_S1x1x32x16_1_1_0_0 : ∀ a, (![1, 1, 0, 0] : Fin 4 → Nat) a + S1x1x32x16.size a ≤ S3x3x32x64.size a
  inb_S1x64x30x30_S1x16x28x28_0_16_1_1 : ∀ a, (![0, 16, 1, 1] : Fin 4 → Nat) a + S1x16x28x28.size a ≤ S1x64x30x30.size a
  inb_S3x3x32x64_S1x1x32x16_1_1_0_16 : ∀ a, (![1, 1, 0, 16] : Fin 4 → Nat) a + S1x1x32x16.size a ≤ S3x3x32x64.size a
  inb_S1x64x30x30_S1x16x28x28_0_32_1_1 : ∀ a, (![0, 32, 1, 1] : Fin 4 → Nat) a + S1x16x28x28.size a ≤ S1x64x30x30.size a
  inb_S3x3x32x64_S1x1x32x16_1_1_0_32 : ∀ a, (![1, 1, 0, 32] : Fin 4 → Nat) a + S1x1x32x16.size a ≤ S3x3x32x64.size a
  inb_S1x64x30x30_S1x16x28x28_0_48_1_1 : ∀ a, (![0, 48, 1, 1] : Fin 4 → Nat) a + S1x16x28x28.size a ≤ S1x64x30x30.size a
  inb_S3x3x32x64_S1x1x32x16_1_1_0_48 : ∀ a, (![1, 1, 0, 48] : Fin 4 → Nat) a + S1x1x32x16.size a ≤ S3x3x32x64.size a
  inb_S1x64x30x30_S1x16x28x28_0_0_1_2 : ∀ a, (![0, 0, 1, 2] : Fin 4 → Nat) a + S1x16x28x28.size a ≤ S1x64x30x30.size a
  inb_S3x3x32x64_S1x1x32x16_1_2_0_0 : ∀ a, (![1, 2, 0, 0] : Fin 4 → Nat) a + S1x1x32x16.size a ≤ S3x3x32x64.size a
  inb_S1x64x30x30_S1x16x28x28_0_16_1_2 : ∀ a, (![0, 16, 1, 2] : Fin 4 → Nat) a + S1x16x28x28.size a ≤ S1x64x30x30.size a
  inb_S3x3x32x64_S1x1x32x16_1_2_0_16 : ∀ a, (![1, 2, 0, 16] : Fin 4 → Nat) a + S1x1x32x16.size a ≤ S3x3x32x64.size a
  inb_S1x64x30x30_S1x16x28x28_0_32_1_2 : ∀ a, (![0, 32, 1, 2] : Fin 4 → Nat) a + S1x16x28x28.size a ≤ S1x64x30x30.size a
  inb_S3x3x32x64_S1x1x32x16_1_2_0_32 : ∀ a, (![1, 2, 0, 32] : Fin 4 → Nat) a + S1x1x32x16.size a ≤ S3x3x32x64.size a
  inb_S1x64x30x30_S1x16x28x28_0_48_1_2 : ∀ a, (![0, 48, 1, 2] : Fin 4 → Nat) a + S1x16x28x28.size a ≤ S1x64x30x30.size a
  inb_S3x3x32x64_S1x1x32x16_1_2_0_48 : ∀ a, (![1, 2, 0, 48] : Fin 4 → Nat) a + S1x1x32x16.size a ≤ S3x3x32x64.size a
  inb_S1x64x30x30_S1x16x28x28_0_0_2_0 : ∀ a, (![0, 0, 2, 0] : Fin 4 → Nat) a + S1x16x28x28.size a ≤ S1x64x30x30.size a
  inb_S3x3x32x64_S1x1x32x16_2_0_0_0 : ∀ a, (![2, 0, 0, 0] : Fin 4 → Nat) a + S1x1x32x16.size a ≤ S3x3x32x64.size a
  inb_S1x64x30x30_S1x16x28x28_0_16_2_0 : ∀ a, (![0, 16, 2, 0] : Fin 4 → Nat) a + S1x16x28x28.size a ≤ S1x64x30x30.size a
  inb_S3x3x32x64_S1x1x32x16_2_0_0_16 : ∀ a, (![2, 0, 0, 16] : Fin 4 → Nat) a + S1x1x32x16.size a ≤ S3x3x32x64.size a
  inb_S1x64x30x30_S1x16x28x28_0_32_2_0 : ∀ a, (![0, 32, 2, 0] : Fin 4 → Nat) a + S1x16x28x28.size a ≤ S1x64x30x30.size a
  inb_S3x3x32x64_S1x1x32x16_2_0_0_32 : ∀ a, (![2, 0, 0, 32] : Fin 4 → Nat) a + S1x1x32x16.size a ≤ S3x3x32x64.size a
  inb_S1x64x30x30_S1x16x28x28_0_48_2_0 : ∀ a, (![0, 48, 2, 0] : Fin 4 → Nat) a + S1x16x28x28.size a ≤ S1x64x30x30.size a
  inb_S3x3x32x64_S1x1x32x16_2_0_0_48 : ∀ a, (![2, 0, 0, 48] : Fin 4 → Nat) a + S1x1x32x16.size a ≤ S3x3x32x64.size a
  inb_S1x64x30x30_S1x16x28x28_0_0_2_1 : ∀ a, (![0, 0, 2, 1] : Fin 4 → Nat) a + S1x16x28x28.size a ≤ S1x64x30x30.size a
  inb_S3x3x32x64_S1x1x32x16_2_1_0_0 : ∀ a, (![2, 1, 0, 0] : Fin 4 → Nat) a + S1x1x32x16.size a ≤ S3x3x32x64.size a
  inb_S1x64x30x30_S1x16x28x28_0_16_2_1 : ∀ a, (![0, 16, 2, 1] : Fin 4 → Nat) a + S1x16x28x28.size a ≤ S1x64x30x30.size a
  inb_S3x3x32x64_S1x1x32x16_2_1_0_16 : ∀ a, (![2, 1, 0, 16] : Fin 4 → Nat) a + S1x1x32x16.size a ≤ S3x3x32x64.size a
  inb_S1x64x30x30_S1x16x28x28_0_32_2_1 : ∀ a, (![0, 32, 2, 1] : Fin 4 → Nat) a + S1x16x28x28.size a ≤ S1x64x30x30.size a
  inb_S3x3x32x64_S1x1x32x16_2_1_0_32 : ∀ a, (![2, 1, 0, 32] : Fin 4 → Nat) a + S1x1x32x16.size a ≤ S3x3x32x64.size a
  inb_S1x64x30x30_S1x16x28x28_0_48_2_1 : ∀ a, (![0, 48, 2, 1] : Fin 4 → Nat) a + S1x16x28x28.size a ≤ S1x64x30x30.size a
  inb_S3x3x32x64_S1x1x32x16_2_1_0_48 : ∀ a, (![2, 1, 0, 48] : Fin 4 → Nat) a + S1x1x32x16.size a ≤ S3x3x32x64.size a
  inb_S1x64x30x30_S1x16x28x28_0_0_2_2 : ∀ a, (![0, 0, 2, 2] : Fin 4 → Nat) a + S1x16x28x28.size a ≤ S1x64x30x30.size a
  inb_S3x3x32x64_S1x1x32x16_2_2_0_0 : ∀ a, (![2, 2, 0, 0] : Fin 4 → Nat) a + S1x1x32x16.size a ≤ S3x3x32x64.size a
  inb_S1x64x30x30_S1x16x28x28_0_16_2_2 : ∀ a, (![0, 16, 2, 2] : Fin 4 → Nat) a + S1x16x28x28.size a ≤ S1x64x30x30.size a
  inb_S3x3x32x64_S1x1x32x16_2_2_0_16 : ∀ a, (![2, 2, 0, 16] : Fin 4 → Nat) a + S1x1x32x16.size a ≤ S3x3x32x64.size a
  inb_S1x64x30x30_S1x16x28x28_0_32_2_2 : ∀ a, (![0, 32, 2, 2] : Fin 4 → Nat) a + S1x16x28x28.size a ≤ S1x64x30x30.size a
  inb_S3x3x32x64_S1x1x32x16_2_2_0_32 : ∀ a, (![2, 2, 0, 32] : Fin 4 → Nat) a + S1x1x32x16.size a ≤ S3x3x32x64.size a
  inb_S1x64x30x30_S1x16x28x28_0_48_2_2 : ∀ a, (![0, 48, 2, 2] : Fin 4 → Nat) a + S1x16x28x28.size a ≤ S1x64x30x30.size a
  inb_S3x3x32x64_S1x1x32x16_2_2_0_48 : ∀ a, (![2, 2, 0, 48] : Fin 4 → Nat) a + S1x1x32x16.size a ≤ S3x3x32x64.size a
  inb_S1x32x28x28_S1x32x28x28_0_0_0_0 : ∀ a, (![0, 0, 0, 0] : Fin 4 → Nat) a + S1x32x28x28.size a ≤ S1x32x28x28.size a
  h_S1x32x28x28 : 0 < S1x32x28x28.numel
  shapeCasts_S1x32x28x28_S32x28x28 : S1x32x28x28.ShapeCasts S32x28x28
  shapeCasts_S32x28x28_S1x32x28x28 : S32x28x28.ShapeCasts S1x32x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x30x30.size a ≤ S16x64x30x30.size a
  hwx0_0 : ∀ i : grid0.Coords, EltTy.bits .f32 = 32 ∨ (Rect.block (s := S16x64x30x30) S1x64x30x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x3x32x64.size a ≤ S3x3x64x64.size a
  hwx0_1 : ∀ i : grid0.Coords, EltTy.bits .f32 = 32 ∨ (Rect.block (s := S3x3x64x64) S3x3x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x28x28.size a ≤ S16x64x28x28.size a
  hwx0_2 : ∀ i : grid0.Coords, EltTy.bits .f32 = 32 ∨ (Rect.block (s := S16x64x28x28) S1x32x28x28.size (cc0_transform_2 i) (hinb0_2 i)).WholeWords (EltTy.packing .f32)

variable [Facts₀]

abbrev win0_0 : Pipeline.Window sig grid0 :=
  Pipeline.Window.ofSpec (Memref.whole main_v0) S1x64x30x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x3x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x28x28.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x28x28 : Shape := ⟨4, ![16, 64, 28, 28]⟩
abbrev S64x64x3x3 : Shape := ⟨4, ![64, 64, 3, 3]⟩
abbrev S_ : Shape := ⟨0, ![]⟩
abbrev S16x64x30x30 : Shape := ⟨4, ![16, 64, 30, 30]⟩
abbrev S16x1x64x28x28 : Shape := ⟨5, ![16, 1, 64, 28, 28]⟩
abbrev S64x64x1x1 : Shape := ⟨4, ![64, 64, 1, 1]⟩
abbrev S64x64 : Shape := ⟨2, ![64, 64]⟩
abbrev S1x64x64x1x1 : Shape := ⟨5, ![1, 64, 64, 1, 1]⟩
abbrev S16x64x64x28x28 : Shape := ⟨5, ![16, 64, 64, 28, 28]⟩

abbrev nBuf : Space → Nat
  | .hbm => 115
  | .vmem => 0
  | .smem => 0
  | _ => 0

abbrev bufTy : (tb : Table) → Fin (tcTables nBuf tb) → BufTy
  | .hbm, ⟨0, _⟩ => ⟨S16x64x28x28, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S16x64x30x30, .f32⟩
  | .hbm, ⟨5, _⟩ => ⟨S_, .f32⟩
  | .hbm, ⟨6, _⟩ => ⟨S16x64x28x28, .f32⟩
  | .hbm, ⟨7, _⟩ => ⟨S16x64x28x28, .f32⟩
  | .hbm, ⟨8, _⟩ => ⟨S16x1x64x28x28, .f32⟩
  | .hbm, ⟨9, _⟩ => ⟨S64x64x1x1, .f32⟩
  | .hbm, ⟨10, _⟩ => ⟨S64x64, .f32⟩
  | .hbm, ⟨11, _⟩ => ⟨S1x64x64x1x1, .f32⟩
  | .hbm, ⟨12, _⟩ => ⟨S16x64x64x28x28, .f32⟩
  | .hbm, ⟨13, _⟩ => ⟨S16x64x64x28x28, .f32⟩
  | .hbm, ⟨14, _⟩ => ⟨S16x64x64x28x28, .f32⟩
  | .hbm, ⟨15, _⟩ => ⟨S16x64x64x28x28, .f32⟩
  | .hbm, ⟨16, _⟩ => ⟨S_, .f32⟩
  | .hbm, ⟨17, _⟩ => ⟨S16x64x28x28, .f32⟩
  | .hbm, ⟨18, _⟩ => ⟨S16x64x28x28, .f32⟩
  | .hbm, ⟨19, _⟩ => ⟨S16x64x28x28, .f32⟩
  | .hbm, ⟨20, _⟩ => ⟨S16x1x64x28x28, .f32⟩
  | .hbm, ⟨21, _⟩ => ⟨S64x64x1x1, .f32⟩
  | .hbm, ⟨22, _⟩ => ⟨S64x64, .f32⟩
  | .hbm, ⟨23, _⟩ => ⟨S1x64x64x1x1, .f32⟩
  | .hbm, ⟨24, _⟩ => ⟨S16x64x64x28x28, .f32⟩
  | .hbm, ⟨25, _⟩ => ⟨S16x64x64x28x28, .f32⟩
  | .hbm, ⟨26, _⟩ => ⟨S16x64x64x28x28, .f32⟩
  | .hbm, ⟨27, _⟩ => ⟨S16x64x64x28x28, .f32⟩
  | .hbm, ⟨28, _⟩ => ⟨S_, .f32⟩
  | .hbm, ⟨29, _⟩ => ⟨S16x64x28x28, .f32⟩
  | .hbm, ⟨30, _⟩ => ⟨S16x64x28x28, .f32⟩
  | .hbm, ⟨31, _⟩ => ⟨S16x64x28x28, .f32⟩
  | .hbm, ⟨32, _⟩ => ⟨S16x1x64x28x28, .f32⟩
  | .hbm, ⟨33, _⟩ => ⟨S64x64x1x1, .f32⟩
  | .hbm, ⟨34, _⟩ => ⟨S64x64, .f32⟩
  | .hbm, ⟨35, _⟩ => ⟨S1x64x64x1x1, .f32⟩
  | .hbm, ⟨36, _⟩ => ⟨S16x64x64x28x28, .f32⟩
  | .hbm, ⟨37, _⟩ => ⟨S16x64x64x28x28, .f32⟩
  | .hbm, ⟨38, _⟩ => ⟨S16x64x64x28x28, .f32⟩
  | .hbm, ⟨39, _⟩ => ⟨S16x64x64x28x28, .f32⟩
  | .hbm, ⟨40, _⟩ => ⟨S_, .f32⟩
  | .hbm, ⟨41, _⟩ => ⟨S16x64x28x28, .f32⟩
  | .hbm, ⟨42, _⟩ => ⟨S16x64x28x28, .f32⟩
  | .hbm, ⟨43, _⟩ => ⟨S16x64x28x28, .f32⟩
  | .hbm, ⟨44, _⟩ => ⟨S16x1x64x28x28, .f32⟩
  | .hbm, ⟨45, _⟩ => ⟨S64x64x1x1, .f32⟩
  | .hbm, ⟨46, _⟩ => ⟨S64x64, .f32⟩
  | .hbm, ⟨47, _⟩ => ⟨S1x64x64x1x1, .f32⟩
  | .hbm, ⟨48, _⟩ => ⟨S16x64x64x28x28, .f32⟩
  | .hbm, ⟨49, _⟩ => ⟨S16x64x64x28x28, .f32⟩
  | .hbm, ⟨50, _⟩ => ⟨S16x64x64x28x28, .f32⟩
  | .hbm, ⟨51, _⟩ => ⟨S16x64x64x28x28, .f32⟩
  | .hbm, ⟨52, _⟩ => ⟨S_, .f32⟩
  | .hbm, ⟨53, _⟩ => ⟨S16x64x28x28, .f32⟩
  | .hbm, ⟨54, _⟩ => ⟨S16x64x28x28, .f32⟩
  | .hbm, ⟨55, _⟩ => ⟨S16x64x28x28, .f32⟩
  | .hbm, ⟨56, _⟩ => ⟨S16x1x64x28x28, .f32⟩
  | .hbm, ⟨57, _⟩ => ⟨S64x64x1x1, .f32⟩
  | .hbm, ⟨58, _⟩ => ⟨S64x64, .f32⟩
  | .hbm, ⟨59, _⟩ => ⟨S1x64x64x1x1, .f32⟩
  | .hbm, ⟨60, _⟩ => ⟨S16x64x64x28x28, .f32⟩
  | .hbm, ⟨61, _⟩ => ⟨S16x64x64x28x28, .f32⟩
  | .hbm, ⟨62, _⟩ => ⟨S16x64x64x28x28, .f32⟩
  | .hbm, ⟨63, _⟩ => ⟨S16x64x64x28x28, .f32⟩
  | .hbm, ⟨64, _⟩ => ⟨S_, .f32⟩
  | .hbm, ⟨65, _⟩ => ⟨S16x64x28x28, .f32⟩
  | .hbm, ⟨66, _⟩ => ⟨S16x64x28x28, .f32⟩
  | .hbm, ⟨67, _⟩ => ⟨S16x64x28x28, .f32⟩
  | .hbm, ⟨68, _⟩ => ⟨S16x1x64x28x28, .f32⟩
  | .hbm, ⟨69, _⟩ => ⟨S64x64x1x1, .f32⟩
  | .hbm, ⟨70, _⟩ => ⟨S64x64, .f32⟩
  | .hbm, ⟨71, _⟩ => ⟨S1x64x64x1x1, .f32⟩
  | .hbm, ⟨72, _⟩ => ⟨S16x64x64x28x28, .f32⟩
  | .hbm, ⟨73, _⟩ => ⟨S16x64x64x28x28, .f32⟩
  | .hbm, ⟨74, _⟩ => ⟨S16x64x64x28x28, .f32⟩
  | .hbm, ⟨75, _⟩ => ⟨S16x64x64x28x28, .f32⟩
  | .hbm, ⟨76, _⟩ => ⟨S_, .f32⟩
  | .hbm, ⟨77, _⟩ => ⟨S16x64x28x28, .f32⟩
  | .hbm, ⟨78, _⟩ => ⟨S16x64x28x28, .f32⟩
  | .hbm, ⟨79, _⟩ => ⟨S16x64x28x28, .f32⟩
  | .hbm, ⟨80, _⟩ => ⟨S16x1x64x28x28, .f32⟩
  | .hbm, ⟨81, _⟩ => ⟨S64x64x1x1, .f32⟩
  | .hbm, ⟨82, _⟩ => ⟨S64x64, .f32⟩
  | .hbm, ⟨83, _⟩ => ⟨S1x64x64x1x1, .f32⟩
  | .hbm, ⟨84, _⟩ => ⟨S16x64x64x28x28, .f32⟩
  | .hbm, ⟨85, _⟩ => ⟨S16x64x64x28x28, .f32⟩
  | .hbm, ⟨86, _⟩ => ⟨S16x64x64x28x28, .f32⟩
  | .hbm, ⟨87, _⟩ => ⟨S16x64x64x28x28, .f32⟩
  | .hbm, ⟨88, _⟩ => ⟨S_, .f32⟩
  | .hbm, ⟨89, _⟩ => ⟨S16x64x28x28, .f32⟩
  | .hbm, ⟨90, _⟩ => ⟨S16x64x28x28, .f32⟩
  | .hbm, ⟨91, _⟩ => ⟨S16x64x28x28, .f32⟩
  | .hbm, ⟨92, _⟩ => ⟨S16x1x64x28x28, .f32⟩
  | .hbm, ⟨93, _⟩ => ⟨S64x64x1x1, .f32⟩
  | .hbm, ⟨94, _⟩ => ⟨S64x64, .f32⟩
  | .hbm, ⟨95, _⟩ => ⟨S1x64x64x1x1, .f32⟩
  | .hbm, ⟨96, _⟩ => ⟨S16x64x64x28x28, .f32⟩
  | .hbm, ⟨97, _⟩ => ⟨S16x64x64x28x28, .f32⟩
  | .hbm, ⟨98, _⟩ => ⟨S16x64x64x28x28, .f32⟩
  | .hbm, ⟨99, _⟩ => ⟨S16x64x64x28x28, .f32⟩
  | .hbm, ⟨100, _⟩ => ⟨S_, .f32⟩
  | .hbm, ⟨101, _⟩ => ⟨S16x64x28x28, .f32⟩
  | .hbm, ⟨102, _⟩ => ⟨S16x64x28x28, .f32⟩
  | .hbm, ⟨103, _⟩ => ⟨S16x64x28x28, .f32⟩
  | .hbm, ⟨104, _⟩ => ⟨S16x1x64x28x28, .f32⟩
  | .hbm, ⟨105, _⟩ => ⟨S64x64x1x1, .f32⟩
  | .hbm, ⟨106, _⟩ => ⟨S64x64, .f32⟩
  | .hbm, ⟨107, _⟩ => ⟨S1x64x64x1x1, .f32⟩
  | .hbm, ⟨108, _⟩ => ⟨S16x64x64x28x28, .f32⟩
  | .hbm, ⟨109, _⟩ => ⟨S16x64x64x28x28, .f32⟩
  | .hbm, ⟨110, _⟩ => ⟨S16x64x64x28x28, .f32⟩
  | .hbm, ⟨111, _⟩ => ⟨S16x64x64x28x28, .f32⟩
  | .hbm, ⟨112, _⟩ => ⟨S_, .f32⟩
  | .hbm, ⟨113, _⟩ => ⟨S16x64x28x28, .f32⟩
  | .hbm, ⟨114, _⟩ => ⟨S16x64x28x28, .f32⟩
  | _, _ => ⟨S16x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_6 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_8 : Ref sig .tc := ⟨.hbm, 112, rfl⟩
abbrev main_v99 : Ref sig .tc := ⟨.hbm, 113, rfl⟩
abbrev main_v100 : Ref sig .tc := ⟨.hbm, 114, rfl⟩

abbrev nD : Nat := 1
abbrev τ : Topo := Topo.v7x

variable {F : FTy → Type} [FloatOps F]

class Facts₀ : Prop where
  pads_S16x64x28x28_S16x64x30x30_000_000_110_110 : S16x64x28x28.Pads (![0, 0, 1, 1] : Fin 4 → Nat) ![0, 0, 1, 1] ![0, 0, 0, 0] S16x64x30x30
  h_S_ : 0 < S_.numel
  bcast_S_S16x64x28x28 : S_.BroadcastsInDim S16x64x28x28 (![] : Fin 0 → Fin S16x64x28x28.rank)
  slices_S16x64x30x30_S16x64x28x28_0_0_0_0 : S16x64x30x30.Slices ![0, 0, 0, 0] S16x64x28x28
  bcast_S16x64x28x28_S16x1x64x28x28_0_2_3_4 : S16x64x28x28.BroadcastsInDim S16x1x64x28x28 (![0, 2, 3, 4] : Fin 4 → Fin S16x1x64x28x28.rank)
  slices_S64x64x3x3_S64x64x1x1_0_0_0_0 : S64x64x3x3.Slices ![0, 0, 0, 0] S64x64x1x1
  shapeCasts_S64x64x1x1_S64x64 : S64x64x1x1.ShapeCasts S64x64
  bcast_S64x64_S1x64x64x1x1_1_2 : S64x64.BroadcastsInDim S1x64x64x1x1 (![1, 2] : Fin 2 → Fin S1x64x64x1x1.rank)
  bcast_S16x1x64x28x28_S16x64x64x28x28_0_1_2_3_4 : S16x1x64x28x28.BroadcastsInDim S16x64x64x28x28 (![0, 1, 2, 3, 4] : Fin 5 → Fin S16x64x64x28x28.rank)
  bcast_S1x64x64x1x1_S16x64x64x28x28_0_1_2_3_4 : S1x64x64x1x1.BroadcastsInDim S16x64x64x28x28 (![0, 1, 2, 3, 4] : Fin 5 → Fin S16x64x64x28x28.rank)
  reducesTo_S16x64x64x28x28_S16x64x28x28_d2 : S16x64x64x28x28.ReducesTo [2] S16x64x28x28
  slices_S16x64x30x30_S16x64x28x28_0_0_0_1 : S16x64x30x30.Slices ![0, 0, 0, 1] S16x64x28x28
  slices_S64x64x3x3_S64x64x1x1_0_0_0_1 : S64x64x3x3.Slices ![0, 0, 0, 1] S64x64x1x1
  slices_S16x64x30x30_S16x64x28x28_0_0_0_2 : S16x64x30x30.Slices ![0, 0, 0, 2] S16x64x28x28
  slices_S64x64x3x3_S64x64x1x1_0_0_0_2 : S64x64x3x3.Slices ![0, 0, 0, 2] S64x64x1x1
  slices_S16x64x30x30_S16x64x28x28_0_0_1_0 : S16x64x30x30.Slices ![0, 0, 1, 0] S16x64x28x28
  slices_S64x64x3x3_S64x64x1x1_0_0_1_0 : S64x64x3x3.Slices ![0, 0, 1, 0] S64x64x1x1
  slices_S16x64x30x30_S16x64x28x28_0_0_1_1 : S16x64x30x30.Slices ![0, 0, 1, 1] S16x64x28x28
  slices_S64x64x3x3_S64x64x1x1_0_0_1_1 : S64x64x3x3.Slices ![0, 0, 1, 1] S64x64x1x1
  slices_S16x64x30x30_S16x64x28x28_0_0_1_2 : S16x64x30x30.Slices ![0, 0, 1, 2] S16x64x28x28
  slices_S64x64x3x3_S64x64x1x1_0_0_1_2 : S64x64x3x3.Slices ![0, 0, 1, 2] S64x64x1x1
  slices_S16x64x30x30_S16x64x28x28_0_0_2_0 : S16x64x30x30.Slices ![0, 0, 2, 0] S16x64x28x28
  slices_S64x64x3x3_S64x64x1x1_0_0_2_0 : S64x64x3x3.Slices ![0, 0, 2, 0] S64x64x1x1
  slices_S16x64x30x30_S16x64x28x28_0_0_2_1 : S16x64x30x30.Slices ![0, 0, 2, 1] S16x64x28x28
  slices_S64x64x3x3_S64x64x1x1_0_0_2_1 : S64x64x3x3.Slices ![0, 0, 2, 1] S64x64x1x1
  slices_S16x64x30x30_S16x64x28x28_0_0_2_2 : S16x64x30x30.Slices ![0, 0, 2, 2] S16x64x28x28
  slices_S64x64x3x3_S64x64x1x1_0_0_2_2 : S64x64x3x3.Slices ![0, 0, 2, 2] S64x64x1x1

variable [Facts₀]

class Facts : Prop extends Facts₀ where

variable [Facts]
-- ==== Proof.AdderAlgebra.lean ====
/-
  The arithmetic shared by the two programs.

  Both compute, at an output position, a running difference: starting from zero, for each of the nine
  filter taps (row shift `kh`, column shift `kw`, in row-major order) they subtract the sum over the 64
  input channels of the distance `|x - w|` between a shifted input entry and a filter weight.
  The reference subtracts the whole 64-term sum at once (from an initial value zero); the kernel
  subtracts it in four pieces of 16 consecutive channels each, one after the other.

  On the extended reals `a - (b + c) = a - b - c` can fail (at infinities of opposite sign), but
  it holds when `b` and `c` are non-negative, and every distance `max d (-d)` is non-negative. So the
  two running differences agree at every extended-real input, with no finiteness assumption.
-/
import Idealize.ShloMosaic.PureOps.Ideal.Laws
import Idealize.ShloMosaic.Lib.ValueIdx
import Mathlib.Algebra.BigOperators.Fin
import Mathlib.Logic.Equiv.Fin.Basic

noncomputable section

namespace Cert.Adder

open Idealize.ShloMosaic Idealize.ShloMosaic.ValueIdx

/-- The distance `|a - b|` on the extended reals, spelt as both programs compute it:
    the larger of the difference and its negation. -/
def dist (a b : EReal) : EReal := max (a - b) (-(a - b))

theorem dist_nonneg (a b : EReal) : 0 ≤ dist a b := by
  unfold dist
  rcases le_total 0 (a - b) with h | h
  · exact le_max_of_le_left h
  · exact le_max_of_le_right (by simpa using EReal.neg_le_neg_iff.mpr h)

/-- Subtracting a sum of two non-negative extended reals is subtracting them one after the other. -/
theorem sub_add_of_nonneg (a : EReal) {b c : EReal} (hb : 0 ≤ b) (hc : 0 ≤ c) :
    a - (b + c) = a - b - c := by
  have hb' : b ≠ ⊥ := ne_of_gt (lt_of_lt_of_le EReal.bot_lt_zero hb)
  have hc' : c ≠ ⊥ := ne_of_gt (lt_of_lt_of_le EReal.bot_lt_zero hc)
  rw [sub_eq_add_neg a (b + c), EReal.neg_add (Or.inl hb') (Or.inr hc')]
  simp only [sub_eq_add_neg, add_assoc]

/-- Channel `cs + k` of the 64, for `k` among 16 consecutive ones starting at `cs`. -/
def chunkIx (cs : Nat) (h : cs + 16 ≤ 64) (k : Fin 16) : Fin 64 := ⟨cs + k.val, by have := k.isLt; omega⟩

/-- A sum over the 64 channels is the sum of its four runs of 16 consecutive channels. -/
theorem sum_chunks (f : Fin 64 → EReal) :
    ∑ ci : Fin 64, f ci
      = (∑ k : Fin 16, f (chunkIx 0 (by omega) k)) + (∑ k : Fin 16, f (chunkIx 16 (by omega) k))
        + (∑ k : Fin 16, f (chunkIx 32 (by omega) k)) + (∑ k : Fin 16, f (chunkIx 48 (by omega) k)) := by
  have e : ∑ ci : Fin 64, f ci = ∑ p : Fin 4 × Fin 16, f (finProdFinEquiv p) :=
    (Fintype.sum_equiv (finProdFinEquiv : Fin 4 × Fin 16 ≃ Fin 64) _ _ (fun _ => rfl)).symm
  rw [e, Fintype.sum_prod_type, Fin.sum_univ_four]
  have hk : ∀ (c : Fin 4) (cs : Nat) (h : cs + 16 ≤ 64), cs = 16 * c.val →
      ∑ k : Fin 16, f (finProdFinEquiv (c, k)) = ∑ k : Fin 16, f (chunkIx cs h k) := by
    intro c cs h hc
    refine Finset.sum_congr rfl fun k _ => congrArg f (Fin.ext ?_)
    show k.val + 16 * c.val = cs + k.val
    omega
  rw [hk 0 0 (by omega) rfl, hk 1 16 (by omega) rfl, hk 2 32 (by omega) rfl, hk 3 48 (by omega) rfl]

/-- One filter tap: the row shift and the column shift, each at most 2. -/
structure Tap where
  kh : Nat
  kw : Nat
  hkh : kh + 28 ≤ 30
  hkw : kw + 28 ≤ 30

/-- The nine taps in the order both programs visit them. -/
def taps : List Tap :=
  [⟨0, 0, by omega, by omega⟩, ⟨0, 1, by omega, by omega⟩, ⟨0, 2, by omega, by omega⟩,
   ⟨1, 0, by omega, by omega⟩, ⟨1, 1, by omega, by omega⟩, ⟨1, 2, by omega, by omega⟩,
   ⟨2, 0, by omega, by omega⟩, ⟨2, 1, by omega, by omega⟩, ⟨2, 2, by omega, by omega⟩]

/-- A tap together with the first channel of one of its four runs of 16 channels. -/
structure Piece where
  p : Tap
  cs : Nat
  hcs : cs + 16 ≤ 64

/-- The 36 pieces in the order the kernel subtracts them: tap by tap, and for each tap the runs from channel 0, 16, 32, 48. -/
def pieces : List Piece :=
  taps.flatMap fun p => [⟨p, 0, by omega⟩, ⟨p, 16, by omega⟩, ⟨p, 32, by omega⟩, ⟨p, 48, by omega⟩]

section
/- `fx ci a b` is the padded input at channel `ci`, row `a`, column `b` (of the batch row at hand);
   `fw ci a b` the weight of channel `ci` at filter row `a`, column `b` (of the output channel at hand). -/
variable (fx : Fin 64 → Fin 30 → Fin 30 → EReal) (fw : Fin 64 → Fin 3 → Fin 3 → EReal) (i j : Fin 28)

/-- The distance the tap `p` contributes for channel `ci` at the output position `(i, j)`. -/
def term (p : Tap) (ci : Fin 64) : EReal :=
  dist (fx ci ⟨p.kh + i.val, by have := p.hkh; have := i.isLt; omega⟩ ⟨p.kw + j.val, by have := p.hkw; have := j.isLt; omega⟩)
    (fw ci ⟨p.kh, by have := p.hkh; omega⟩ ⟨p.kw, by have := p.hkw; omega⟩)

/-- A tap's contribution over one run of 16 channels. -/
def runSum (p : Tap) (cs : Nat) (h : cs + 16 ≤ 64) : EReal := ∑ k : Fin 16, term fx fw i j p (chunkIx cs h k)

/-- The running difference as the kernel forms it, piece by piece. -/
def accPieces : EReal := pieces.foldl (fun acc t => acc - runSum fx fw i j t.p t.cs t.hcs) 0

/-- The same, the four pieces of a tap taken together. -/
def accK : EReal :=
  taps.foldl (fun acc p => acc - runSum fx fw i j p 0 (by omega) - runSum fx fw i j p 16 (by omega)
    - runSum fx fw i j p 32 (by omega) - runSum fx fw i j p 48 (by omega)) 0

/-- The running difference as the reference forms it: per tap, the sum over all channels from the initial value zero. -/
def accR : EReal := taps.foldl (fun acc p => acc - (0 + ∑ ci : Fin 64, term fx fw i j p ci)) 0

theorem accPieces_eq_accK : accPieces fx fw i j = accK fx fw i j := rfl

theorem runSum_nonneg (p : Tap) (cs : Nat) (h : cs + 16 ≤ 64) : 0 ≤ runSum fx fw i j p cs h :=
  Finset.sum_nonneg fun _ _ => dist_nonneg _ _

/-- Per tap: subtracting the 64-channel sum is subtracting its four runs in turn. -/
theorem tap_law (acc : EReal) (p : Tap) :
    acc - (0 + ∑ ci : Fin 64, term fx fw i j p ci)
      = acc - runSum fx fw i j p 0 (by omega) - runSum fx fw i j p 16 (by omega)
        - runSum fx fw i j p 32 (by omega) - runSum fx fw i j p 48 (by omega) := by
  rw [zero_add, sum_chunks]
  have h0 := runSum_nonneg fx fw i j p 0 (by omega)
  have h1 := runSum_nonneg fx fw i j p 16 (by omega)
  have h2 := runSum_nonneg fx fw i j p 32 (by omega)
  have h3 := runSum_nonneg fx fw i j p 48 (by omega)
  unfold runSum at *
  rw [sub_add_of_nonneg acc (add_nonneg (add_nonneg h0 h1) h2) h3,
    sub_add_of_nonneg acc (add_nonneg h0 h1) h2, sub_add_of_nonneg acc h0 h1]

/-- The two running differences are one extended real. -/
theorem accR_eq_accK : accR fx fw i j = accK fx fw i j := by
  unfold accR accK
  congr 1
  funext acc p
  exact tap_law fx fw i j acc p

end

/-- A running difference of arrays, read at an index, is the running difference of the entries there. -/
theorem foldl_subf_apply {α : Type} {s : Shape} {φ : FTy} (f : α → FVec Ideal s φ) (l : List α) (a : FVec Ideal s φ)
    (q : s.Idx) :
    (l.foldl (fun acc t => subf acc (f t)) a) q = l.foldl (fun acc t => acc - f t q) (a q) := by
  induction l generalizing a with
  | nil => rfl
  | cons t l ih => exact ih (subf a (f t))

/-- THE RESULT both programs compute, as one function of the padded input `xp` (batch × channel × 30 × 30) and the
    weights `W` (output channel × input channel × 3 × 3): at batch row `n`, output channel `co` and position `(i, j)`,
    the running difference over the nine taps of the channel sums of `|xp[n, ci, kh + i, kw + j] - W[co, ci, kh, kw]|`. -/
def adder (xp : (⟨4, ![16, 64, 30, 30]⟩ : Shape).Idx → EReal) (W : (⟨4, ![64, 64, 3, 3]⟩ : Shape).Idx → EReal) :
    (⟨4, ![16, 64, 28, 28]⟩ : Shape).Idx → EReal :=
  fun y => accK (fun ci a b => xp (ix4 (y 0) ci a b)) (fun ci a b => W (ix4 (y 1) ci a b)) (y 2) (y 3)

end Cert.Adder

end
-- ==== Proof.KernelTile.lean ====
/-
  What the kernel's body leaves in its output tile.

  One grid point holds a padded input tile `x0` (1 batch row × 64 channels × 30 × 30) and a weight tile
  `x1` (3 × 3 filter positions × 32 output channels × 64 input channels). The body starts from a zero
  accumulator (32 × 28 × 28) and, for each filter position and each run of 16 input channels, subtracts the
  sum over those 16 channels of `|x0 - x1|`, the input entry shifted by the filter position and the weight
  spread over the 28 × 28 output positions. This module reads that accumulator at one index and shows it
  is the running difference `Cert.Adder.accK` of the tile's entries.
-/
import proofs.«164215_j65867618451686_1_alg».proof.Proof.Gen.KernelIdeal.Frame
import proofs.«164215_j65867618451686_1_alg».proof.Proof.AdderAlgebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.Adder
open Idealize.ShloMosaic Idealize.ShloMosaic.TcCoe Idealize.ShloMosaic.ValueIdx Idealize.SL.Sem

/-- The 16-channel, 28 × 28 window of the input tile a piece reads: channels from `cs`, rows from `kh`, columns from `kw`. -/
abbrev rx (t : Piece) : Rect S1x64x30x30 :=
  Rect.unit (s := S1x64x30x30) ![0, t.cs, t.p.kh, t.p.kw] S1x16x28x28.size (fun a => by
    have h1 := t.hcs; have h2 := t.p.hkh; have h3 := t.p.hkw
    match a with
    | ⟨0, _⟩ => show 0 + 1 ≤ 1; omega
    | ⟨1, _⟩ => show t.cs + 16 ≤ 64; omega
    | ⟨2, _⟩ => show t.p.kh + 28 ≤ 30; omega
    | ⟨3, _⟩ => show t.p.kw + 28 ≤ 30; omega)

/-- The 32 × 16 window of the weight tile a piece reads: filter position `(kh, kw)`, input channels from `cs`. -/
abbrev rwt (t : Piece) : Rect S3x3x32x64 :=
  Rect.unit (s := S3x3x32x64) ![t.p.kh, t.p.kw, 0, t.cs] S1x1x32x16.size (fun a => by
    have h1 := t.hcs; have h2 := t.p.hkh; have h3 := t.p.hkw
    match a with
    | ⟨0, _⟩ => show t.p.kh + 1 ≤ 3; omega
    | ⟨1, _⟩ => show t.p.kw + 1 ≤ 3; omega
    | ⟨2, _⟩ => show 0 + 32 ≤ 32; omega
    | ⟨3, _⟩ => show t.cs + 16 ≤ 64; omega)

/-- One piece's contribution as the body computes it from the two loaded windows: the input window spread over
    the 32 output channels, the weight window spread over the 28 × 28 positions, their distance summed over the
    16 channels. -/
def tapV (v : Vec Ideal S1x16x28x28 .f32) (u : Vec Ideal S1x1x32x16 .f32) : FVec Ideal S32x28x28 .f32 :=
  multiReduction .add [1] S32x28x28
    (absf (subf
      (broadcastTo S32x16x28x28 (shapeCast S1x16x28x28 (shapeCast S16x28x28 v shapeCasts_S1x16x28x28_S16x28x28) shapeCasts_S16x28x28_S1x16x28x28) broadcasts_S1x16x28x28_S32x16x28x28)
      (broadcastTo S32x16x28x28 (shapeCast S32x16x1x1 (shapeCast S32x16 u shapeCasts_S1x1x32x16_S32x16) shapeCasts_S32x16_S32x16x1x1) broadcasts_S32x16x1x1_S32x16x28x28)))
    0x00000000#32 reduces_S32x16x28x28_S32x28x28 (.inl rfl) rfl

/-- The accumulator after all 36 pieces. -/
def accV (x0 : Vec Ideal S1x64x30x30 .f32) (x1 : Vec Ideal S3x3x32x64 .f32) : FVec Ideal S32x28x28 .f32 :=
  pieces.foldl (fun acc t => subf acc (tapV (View.ld x0 (rx t)) (View.ld x1 (rwt t))))
    (broadcast S32x28x28 (Scalar.ofBits .f32 0x00000000#32))

theorem zero4 : (![0, 0, 0, 0] : Fin 4 → Nat) = fun _ => 0 := by
  funext a; match a with | ⟨0, _⟩ => rfl | ⟨1, _⟩ => rfl | ⟨2, _⟩ => rfl | ⟨3, _⟩ => rfl

/-- The tile the body stores is the accumulator with a leading unit axis. -/
theorem out_fold (x0 : Vec Ideal S1x64x30x30 .f32) (x1 : Vec Ideal S3x3x32x64 .f32) :
    out0_2 x0 x1 = shapeCast S1x32x28x28 (accV x0 x1) shapeCasts_S32x28x28_S1x32x28x28 := by
  unfold out0_2
  rw [View.canon_unit_zero zero4]
  rfl

/-! ## One piece's contribution at an index -/

/-- The input window spread over the output channels, read at `(co, k, i, j)`: the window at `(0, k, i, j)`. -/
theorem xspread_apply (v : Vec Ideal S1x16x28x28 .f32) (co : Fin 32) (k : Fin 16) (i j : Fin 28) :
    broadcastTo S32x16x28x28 (shapeCast S1x16x28x28 (shapeCast S16x28x28 v shapeCasts_S1x16x28x28_S16x28x28) shapeCasts_S16x28x28_S1x16x28x28) broadcasts_S1x16x28x28_S32x16x28x28 (ix4 co k i j : S32x16x28x28.Idx)
      = v (ix4 0 k i j) := by
  rw [shapeCast_shapeCast]
  exact broadcastTo_apply v _ (ix4 co k i j : S32x16x28x28.Idx) (ix4 0 k i j : S1x16x28x28.Idx) (fun a => by
    match a with | ⟨0, _⟩ => rfl | ⟨1, _⟩ => rfl | ⟨2, _⟩ => rfl | ⟨3, _⟩ => rfl)

/-- The weight window spread over the output positions, read at `(co, k, i, j)`: the window at `(0, 0, co, k)`. -/
theorem wspread_apply (u : Vec Ideal S1x1x32x16 .f32) (co : Fin 32) (k : Fin 16) (i j : Fin 28) :
    broadcastTo S32x16x28x28 (shapeCast S32x16x1x1 (shapeCast S32x16 u shapeCasts_S1x1x32x16_S32x16) shapeCasts_S32x16_S32x16x1x1) broadcasts_S32x16x1x1_S32x16x28x28 (ix4 co k i j : S32x16x28x28.Idx)
      = u (ix4 0 0 co k) := by
  rw [broadcastTo_apply _ _ (ix4 co k i j : S32x16x28x28.Idx) (ix4 co k 0 0 : S32x16x1x1.Idx) (fun a => by
    match a with | ⟨0, _⟩ => rfl | ⟨1, _⟩ => rfl | ⟨2, _⟩ => rfl | ⟨3, _⟩ => rfl)]
  rw [shapeCast_apply _ _ (ix4 co k 0 0 : S32x16x1x1.Idx) (ix2 co k : S32x16.Idx) (by
    rw [Shape.rowMajor_val_two, Shape.rowMajor_val_four]
    show co.val * 16 + k.val = ((co.val * 16 + k.val) * 1 + 0) * 1 + 0
    omega)]
  exact shapeCast_apply _ _ (ix2 co k : S32x16.Idx) (ix4 0 0 co k : S1x1x32x16.Idx) (by
    rw [Shape.rowMajor_val_two, Shape.rowMajor_val_four]
    show ((0 * 1 + 0) * 32 + co.val) * 16 + k.val = co.val * 16 + k.val
    omega)

/-- One piece's contribution at the accumulator index `(co, i, j)`: the sum over the 16 channels of the distance
    between the input window at `(k, i, j)` and the weight window at `(co, k)`. -/
theorem tapV_apply (v : Vec Ideal S1x16x28x28 .f32) (u : Vec Ideal S1x1x32x16 .f32) (co : Fin 32) (i j : Fin 28) :
    tapV v u (ix3 co i j) = ∑ k : Fin 16, dist (v (ix4 0 k i j)) (u (ix4 0 0 co k)) := by
  unfold tapV
  refine (Ideal.multiReduction_add_single _ 0x00000000#32 reduces_S32x16x28x28_S32x28x28 (.inl rfl) rfl (ix3 co i j)).trans ?_
  show (∑ k : Fin 16, _) = _
  refine Finset.sum_congr rfl fun k _ => ?_
  have hq : reduces_S32x16x28x28_S32x28x28.lift (ix3 co i j) k = (ix4 co k i j : S32x16x28x28.Idx) := by
    funext a; apply Fin.ext
    match a with | ⟨0, _⟩ => rfl | ⟨1, _⟩ => rfl | ⟨2, _⟩ => rfl | ⟨3, _⟩ => rfl
  rw [hq]
  show FloatOps.absf (FloatOps.subf _ _) = _
  rw [xspread_apply v co k i j, wspread_apply u co k i j]
  rfl

/-! ## The windows' entries in the tiles -/

/-- A piece's input window at `(0, k, i, j)` is the input tile at channel `cs + k`, row `kh + i`, column `kw + j`. -/
theorem ld_rx (x0 : Vec Ideal S1x64x30x30 .f32) (t : Piece) (k : Fin 16) (i j : Fin 28) :
    View.ld x0 (rx t) (ix4 0 k i j)
      = x0 (ix4 0 (chunkIx t.cs t.hcs k) ⟨t.p.kh + i.val, by have := t.p.hkh; have := i.isLt; omega⟩
          ⟨t.p.kw + j.val, by have := t.p.hkw; have := j.isLt; omega⟩) := by
  show x0 _ = x0 _
  refine congrArg x0 (funext fun a => Fin.ext ?_)
  match a with
  | ⟨0, _⟩ => show 0 + 1 * 0 = 0; omega
  | ⟨1, _⟩ => show t.cs + 1 * k.val = t.cs + k.val; omega
  | ⟨2, _⟩ => show t.p.kh + 1 * i.val = t.p.kh + i.val; omega
  | ⟨3, _⟩ => show t.p.kw + 1 * j.val = t.p.kw + j.val; omega

/-- A piece's weight window at `(0, 0, co, k)` is the weight tile at filter position `(kh, kw)`, output channel `co`,
    input channel `cs + k`. -/
theorem ld_rwt (x1 : Vec Ideal S3x3x32x64 .f32) (t : Piece) (co : Fin 32) (k : Fin 16) :
    View.ld x1 (rwt t) (ix4 0 0 co k)
      = x1 (ix4 ⟨t.p.kh, by have := t.p.hkh; omega⟩ ⟨t.p.kw, by have := t.p.hkw; omega⟩ co (chunkIx t.cs t.hcs k)) := by
  show x1 _ = x1 _
  refine congrArg x1 (funext fun a => Fin.ext ?_)
  match a with
  | ⟨0, _⟩ => show t.p.kh + 1 * 0 = t.p.kh; omega
  | ⟨1, _⟩ => show t.p.kw + 1 * 0 = t.p.kw; omega
  | ⟨2, _⟩ => show 0 + 1 * co.val = co.val; omega
  | ⟨3, _⟩ => show t.cs + 1 * k.val = t.cs + k.val; omega

/-! ## The stored tile at an index -/

/-- The tile the body stores, at `(0, co, i, j)`, is the running difference over the tile's entries: the input tile's
    at the batch row, the weight tile's at the output channel `co`. -/
theorem out_apply (x0 : Vec Ideal S1x64x30x30 .f32) (x1 : Vec Ideal S3x3x32x64 .f32) (co : Fin 32) (i j : Fin 28) :
    out0_2 x0 x1 (ix4 0 co i j)
      = accK (fun ci a b => x0 (ix4 0 ci a b)) (fun ci a b => x1 (ix4 a b co ci)) i j := by
  rw [out_fold, shapeCast_abc_1abc_apply]
  unfold accV
  rw [foldl_subf_apply, ← accPieces_eq_accK]
  unfold accPieces
  have h0 : (broadcast S32x28x28 (Scalar.ofBits .f32 0x00000000#32) : FVec Ideal S32x28x28 .f32) (ix3 co i j) = 0 :=
    Ideal.ofBits_zero_f32
  rw [h0]
  congr 1
  funext acc t
  congr 1
  refine (tapV_apply _ _ co i j).trans ?_
  unfold runSum
  refine Finset.sum_congr rfl fun k _ => ?_
  rw [ld_rx, ld_rwt]
  rfl

end Cert.KernelIdeal.Tile

end
-- ==== Proof.KernelArray.lean ====
/-
  From the tiles to the whole output array.

  The grid has 16 × 2 points: point `(n, c)` holds batch row `n` of the padded input (all 64 channels, 30 × 30),
  the weights of output channels `32 c … 32 c + 31` in the layout filter row × filter column × output channel ×
  input channel, and writes output channels `32 c … 32 c + 31` of batch row `n`. The padded input is the host's
  zero padding of the first argument, the weight array the host's transpose of the second. So the tile a point
  writes is the restriction to its block of ONE function of the arguments, `Cert.Adder.adder` of the padded input and
  the weights; the 32 blocks tile the output array, which therefore ends holding that function.
-/
import proofs.«164215_j65867618451686_1_alg».proof.Proof.Gen.KernelIdeal.Frame
import proofs.«164215_j65867618451686_1_alg».proof.Proof.KernelTile
import proofs.«164215_j65867618451686_1_alg».proof.Proof.AdderAlgebra
import Idealize.ShloMosaic.Lib.ValueIdx
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Tile Cert.Adder
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds -/

/-- The input padded by a zero border of width one on the last two axes. -/
def padded (x : FVec Ideal S16x64x28x28 .f32) : FVec Ideal S16x64x30x30 .f32 :=
  pad S16x64x30x30 ![0, 0, 1, 1] ![0, 0, 1, 1] ![0, 0, 0, 0] x (sitofp .f32 (constantI S_ 32 0#32)) pads_S16x64x28x28_S16x64x30x30_000_000_110_110 h_S_

/-- The first window's array is the padded first argument. -/
theorem V_padded (c : Dev nD) :
    (V m c main_v0 : FVec Ideal S16x64x30x30 .f32) = padded (m ((c : Thread nD τ).loc main_arg0)) := by
  dsimp only [V]
  simp only [hostOps0, hostOps0_1, hostOps0_2, List.flatten_cons, List.flatten_nil, List.append_nil, List.cons_append,
    List.nil_append]
  after_results
  rfl

/-- The second window's array is the second argument with its axes reordered to
    filter row × filter column × output channel × input channel. -/
theorem V_transposed (c : Dev nD) :
    (V m c main_v1 : FVec Ideal S3x3x64x64 .f32)
      = transpose S3x3x64x64 [2, 3, 0, 1] (m ((c : Thread nD τ).loc main_arg1)) transposes_S64x64x3x3_S3x3x64x64_2_3_0_1 := by
  dsimp only [V]
  simp only [hostOps0, hostOps0_1, hostOps0_2, List.flatten_cons, List.flatten_nil, List.append_nil, List.cons_append,
    List.nil_append]
  after_results

/-- The reordered weights at `(a, b, co, ci)` are the weights at `(co, ci, a, b)`. -/
theorem transposed_apply (W : FVec Ideal S64x64x3x3 .f32) (a b : Fin 3) (co ci : Fin 64) :
    transpose S3x3x64x64 [2, 3, 0, 1] W transposes_S64x64x3x3_S3x3x64x64_2_3_0_1 (ix4 a b co ci : S3x3x64x64.Idx)
      = W (ix4 co ci a b) :=
  transpose_apply _ W _ (ix4 a b co ci : S3x3x64x64.Idx) (ix4 co ci a b : S64x64x3x3.Idx) (fun q => by
    match q with | ⟨0, _⟩ => rfl | ⟨1, _⟩ => rfl | ⟨2, _⟩ => rfl | ⟨3, _⟩ => rfl)

/-- THE RESULT as a function of the two arguments. -/
def result (c : Dev nD) : FVec Ideal S16x64x28x28 .f32 :=
  adder (padded (m ((c : Thread nD τ).loc main_arg0))) (m ((c : Thread nD τ).loc main_arg1))

/-! ## The index maps, decided over the 32 grid points -/

/-- The input window follows the output's batch row and stays at the origin otherwise; the weight window follows the
    output's channel block; the output's block indices range over 16 × 2. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = 0 ∧ win0_1.index t (1 : Fin 4) = 0
    ∧ win0_1.index t (2 : Fin 4) = win0_2.index t (1 : Fin 4) ∧ win0_1.index t (3 : Fin 4) = 0
    ∧ win0_2.index t (0 : Fin 4) < 16 ∧ win0_2.index t (1 : Fin 4) < 2
    ∧ win0_2.index t (2 : Fin 4) = 0 ∧ win0_2.index t (3 : Fin 4) = 0 :=
  (by decide +kernel : ∀ t : Fin grid0.N, _)

/-- Every block of the output is some point's. -/
theorem idx_onto : ∀ (q0 : Fin 16) (q1 : Fin 2), ∃ t : Fin cfg0.N, win0_2.index t = ![q0.val, q1.val, 0, 0] :=
  (by decide +kernel : ∀ (q0 : Fin 16) (q1 : Fin 2), ∃ t : Fin grid0.N, win0_2.index t = ![q0.val, q1.val, 0, 0])

/-! ## What a point writes back -/

/-- The input tile at a point, at `(0, ci, a, b)`: the padded input at the point's batch row. -/
theorem xtile_apply (c : Dev nD) (t : Fin cfg0.N) (ci : Fin 64) (a b : Fin 30) :
    iblk m c 0 t (ix4 0 ci a b)
      = padded (m ((c : Thread nD τ).loc main_arg0)) (ix4 ⟨win0_2.index t (0 : Fin 4), (idx_facts t).2.2.2.2.2.2.2.2.1⟩ ci a b) := by
  obtain ⟨e0, e1, e2, e3, -, -, -, -, -, -, -, -⟩ := idx_facts t
  rw [← V_padded m c]
  show V m c main_v0 (((cfg0.win 0).blk t).view.emb (ix4 0 ci a b)) = V m c main_v0 _
  refine congrArg (V m c main_v0) (funext fun q => Fin.ext ?_)
  match q with
  | ⟨0, _⟩ => show win0_0.index t (0 : Fin 4) * 1 + 1 * 0 = win0_2.index t (0 : Fin 4); omega
  | ⟨1, _⟩ => show win0_0.index t (1 : Fin 4) * 64 + 1 * ci.val = ci.val; omega
  | ⟨2, _⟩ => show win0_0.index t (2 : Fin 4) * 30 + 1 * a.val = a.val; omega
  | ⟨3, _⟩ => show win0_0.index t (3 : Fin 4) * 30 + 1 * b.val = b.val; omega

/-- The weight tile at a point, at `(a, b, co, ci)`: the weight of output channel `32 c + co` of the point's channel block
    `c`, input channel `ci`, filter position `(a, b)`. -/
theorem wtile_apply (c : Dev nD) (t : Fin cfg0.N) (a b : Fin 3) (co : Fin 32) (ci : Fin 64) :
    iblk m c 1 t (ix4 a b co ci)
      = m ((c : Thread nD τ).loc main_arg1) (ix4 ⟨win0_2.index t (1 : Fin 4) * 32 + co.val, by
          have := (idx_facts t).2.2.2.2.2.2.2.2.2.1; have := co.isLt; omega⟩ ci a b) := by
  obtain ⟨-, -, -, -, e4, e5, e6, e7, -, h9, -, -⟩ := idx_facts t
  rw [← transposed_apply (m ((c : Thread nD τ).loc main_arg1)) a b _ ci, ← V_transposed m c]
  show V m c main_v1 (((cfg0.win 1).blk t).view.emb (ix4 a b co ci)) = V m c main_v1 _
  refine congrArg (V m c main_v1) (funext fun q => Fin.ext ?_)
  match q with
  | ⟨0, _⟩ => show win0_1.index t (0 : Fin 4) * 3 + 1 * a.val = a.val; omega
  | ⟨1, _⟩ => show win0_1.index t (1 : Fin 4) * 3 + 1 * b.val = b.val; omega
  | ⟨2, _⟩ => show win0_1.index t (2 : Fin 4) * 32 + 1 * co.val = win0_2.index t (1 : Fin 4) * 32 + co.val; omega
  | ⟨3, _⟩ => show win0_1.index t (3 : Fin 4) * 64 + 1 * ci.val = ci.val; omega

/-- A stored tile whose input tile is batch row `nn` of the padded input and whose weight tile holds the output channels
    `32 cb … 32 cb + 31` is, index by index, the result at that batch row and those output channels. -/
theorem tile_eq (x0 : Vec Ideal S1x64x30x30 .f32) (x1 : Vec Ideal S3x3x32x64 .f32)
    (xp : FVec Ideal S16x64x30x30 .f32) (W : FVec Ideal S64x64x3x3 .f32) (nn : Fin 16) (cb : Nat) (hcb : cb < 2)
    (hx : ∀ (ci : Fin 64) (a b : Fin 30), x0 (ix4 0 ci a b) = xp (ix4 nn ci a b))
    (hw : ∀ (a b : Fin 3) (co : Fin 32) (ci : Fin 64),
      x1 (ix4 a b co ci) = W (ix4 ⟨cb * 32 + co.val, by have := co.isLt; omega⟩ ci a b))
    (y : S1x32x28x28.Idx) :
    out0_2 x0 x1 y
      = adder xp W (ix4 nn ⟨cb * 32 + (y 1).val, by have h : (y 1).val < 32 := (y 1).isLt; omega⟩ (y 2) (y 3) : S16x64x28x28.Idx) := by
  obtain ⟨u, co, i, j, rfl⟩ : ∃ (u : Fin 1) (co : Fin 32) (i j : Fin 28), y = ix4 u co i j :=
    ⟨y 0, y 1, y 2, y 3, eq_ix4 y⟩
  obtain rfl : u = 0 := Subsingleton.elim _ _
  rw [out_apply]
  unfold adder
  congr 1
  · funext ci a b; exact hx ci a b
  · funext ci a b; exact hw a b co ci

/-- WHAT POINT `t` WRITES BACK is block `t` of the result. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  obtain ⟨-, -, -, -, -, -, -, -, h8, h9, e10, e11⟩ := idx_facts t
  funext y
  refine (tile_eq (iblk m c 0 t) (iblk m c 1 t) (padded (m ((c : Thread nD τ).loc main_arg0)))
    (m ((c : Thread nD τ).loc main_arg1)) ⟨win0_2.index t (0 : Fin 4), h8⟩ (win0_2.index t (1 : Fin 4)) h9
    (fun ci a b => xtile_apply m c t ci a b) (fun a b co ci => wtile_apply m c t a b co ci) y).trans ?_
  rw [View.read_apply, cast_eq]
  unfold result
  refine congrArg (adder _ _) (funext fun q => Fin.ext ?_)
  have hy0 : (y 0).val < 1 := (y 0).isLt
  match q with
  | ⟨0, _⟩ => show win0_2.index t (0 : Fin 4) = win0_2.index t (0 : Fin 4) * 1 + 1 * (y 0).val; omega
  | ⟨1, _⟩ => show win0_2.index t (1 : Fin 4) * 32 + (y 1).val = win0_2.index t (1 : Fin 4) * 32 + 1 * (y 1).val; omega
  | ⟨2, _⟩ => show (y 2).val = win0_2.index t (2 : Fin 4) * 28 + 1 * (y 2).val; omega
  | ⟨3, _⟩ => show (y 3).val = win0_2.index t (3 : Fin 4) * 28 + 1 * (y 3).val; omega

/-! ## The blocks tile the array -/

/-- An index of the output array is in point `t`'s block iff each coordinate is in the block's range on its axis. -/
theorem mem_blk (t : Fin cfg0.N) (i : S16x64x28x28.Idx) :
    i ∈ ((cfg0.win 2).blk t).view.set ↔ ∀ a : Fin 4, win0_2.index t a * S1x32x28x28.size a ≤ (i a).val ∧ (i a).val < win0_2.index t a * S1x32x28x28.size a + S1x32x28x28.size a := by
  show i ∈ ((View.whole main_v2).slice (win0_2.rect t)).set ↔ _
  rw [View.set_slice_whole, Rect.mem_set_unit]
  exact Iff.rfl

/-- Every index of the output array is in some point's block. -/
theorem cover (i : S16x64x28x28.Idx) :
    ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 28 := (i 2).isLt
  have hi3 : (i 3).val < 28 := (i 3).isLt
  obtain ⟨t, ht⟩ := idx_onto ⟨(i 0).val, by omega⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 28 ≤ (i 2).val ∧ (i 2).val < win0_2.index t (2 : Fin 4) * 28 + 28; omega
  | ⟨3, _⟩ => show win0_2.index t (3 : Fin 4) * 28 ≤ (i 3).val ∧ (i 3).val < win0_2.index t (3 : Fin 4) * 28 + 28; omega

/-- THE OUTPUT ARRAY after the run is the result. -/
theorem final (c : Dev nD) : (dats m 0 c).arrAt 2 cfg0.N = result m c :=
  (dats m 0 c).arrAt_eq_of_cover 2 (result m c) (fun t _ => flushed_eq m c t) (cover)

/-! ## The run, read -/

/-- Every weakly fair execution of the kernel's program terminates with the output array at the result and the
    arguments unchanged: the generated frame run, its output array named. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Whole

end
-- ==== Proof.ReferenceArray.lean ====
/-
  What the reference computes, index by index.

  The reference pads the input by one zero row and column on each side, then for each of the nine filter
  taps slices the 28 × 28 window of the padded input shifted by the tap, spreads it over the 64 output
  channels, spreads the tap's 64 × 64 weights over the batch and the positions, takes the distance, sums it over
  the input channels (from the initial value zero), and subtracts the sum from the running result, which starts at
  zero. This module names that composition as a fold over the taps and reads it at an output index: it is the
  running difference `Cert.Adder.accR`, hence (AdderAlgebra) the function `Cert.Adder.adder` of the padded input
  and the weights.
-/
import proofs.«164215_j65867618451686_1_alg».proof.Proof.Gen.ReferenceIdeal.Run
import proofs.«164215_j65867618451686_1_alg».proof.Proof.AdderAlgebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Conv

open Cert.ReferenceIdeal Cert.ReferenceIdeal.Gen Cert.Adder
open Idealize.ShloMosaic Idealize.ShloMosaic.TcCoe Idealize.ShloMosaic.ValueIdx Idealize.SL.Sem

/-- The tap's offsets into the padded input and into the weights: nothing on the two leading axes, the tap's shifts on the last two. -/
abbrev tapOff (p : Tap) : Fin 4 → Nat := ![0, 0, p.kh, p.kw]

/-- The 28 × 28 window of the padded input shifted by a tap fits. -/
theorem slx (p : Tap) : S16x64x30x30.Slices (tapOff p) S16x64x28x28 :=
  ⟨rfl, fun a => by
    have h2 := p.hkh; have h3 := p.hkw
    match a with
    | ⟨0, _⟩ => show 0 + 16 ≤ 16; omega
    | ⟨1, _⟩ => show 0 + 64 ≤ 64; omega
    | ⟨2, _⟩ => show p.kh + 28 ≤ 30; omega
    | ⟨3, _⟩ => show p.kw + 28 ≤ 30; omega⟩

/-- The tap's single filter position fits. -/
theorem slw (p : Tap) : S64x64x3x3.Slices (tapOff p) S64x64x1x1 :=
  ⟨rfl, fun a => by
    have h2 := p.hkh; have h3 := p.hkw
    match a with
    | ⟨0, _⟩ => show 0 + 64 ≤ 64; omega
    | ⟨1, _⟩ => show 0 + 64 ≤ 64; omega
    | ⟨2, _⟩ => show p.kh + 1 ≤ 3; omega
    | ⟨3, _⟩ => show p.kw + 1 ≤ 3; omega⟩

section AnyFloat
variable {F : FTy → Type} [FloatOps F]

/-- The input padded by a zero border of width one on the last two axes. -/
def padded (x : FVec F S16x64x28x28 .f32) : FVec F S16x64x30x30 .f32 :=
  pad S16x64x30x30 ![0, 0, 1, 1] ![0, 0, 1, 1] ![0, 0, 0, 0] x (sitofp .f32 (constantI S_ 32 0#32)) pads_S16x64x28x28_S16x64x30x30_000_000_110_110 h_S_

/-- One tap's channel sum as the reference computes it, over every batch row, output channel and position at once. -/
def refTap (xp : FVec F S16x64x30x30 .f32) (W : FVec F S64x64x3x3 .f32) (off : Fin 4 → Nat)
    (hx : S16x64x30x30.Slices off S16x64x28x28) (hw : S64x64x3x3.Slices off S64x64x1x1) : FVec F S16x64x28x28 .f32 :=
  Host.reduceAdd (Host.absf (subf
      (broadcastInDim S16x64x64x28x28 ![0, 1, 2, 3, 4] bcast_S16x1x64x28x28_S16x64x64x28x28_0_1_2_3_4 (broadcastInDim S16x1x64x28x28 ![0, 2, 3, 4] bcast_S16x64x28x28_S16x1x64x28x28_0_2_3_4 (extractStridedSlice S16x64x28x28 off xp hx)))
      (broadcastInDim S16x64x64x28x28 ![0, 1, 2, 3, 4] bcast_S1x64x64x1x1_S16x64x64x28x28_0_1_2_3_4 (broadcastInDim S1x64x64x1x1 ![1, 2] bcast_S64x64_S1x64x64x1x1_1_2 (shapeCast _ (extractStridedSlice S64x64x1x1 off W hw) shapeCasts_S64x64x1x1_S64x64)))))
    (constant S_ .f32 0x00000000#32) reducesTo_S16x64x64x28x28_S16x64x28x28_d2 h_S_

/-- The reference's result: from zero, each tap's channel sum subtracted in turn. -/
def refAcc (xp : FVec F S16x64x30x30 .f32) (W : FVec F S64x64x3x3 .f32) : FVec F S16x64x28x28 .f32 :=
  taps.foldl (fun acc p => subf acc (refTap xp W (tapOff p) (slx p) (slw p)))
    (broadcastInDim S16x64x28x28 ![] bcast_S_S16x64x28x28 (constant S_ .f32 0x00000000#32))

/-- The reference run's term is that fold of the padded first argument and the second argument. -/
theorem res_eq (m : (ℓ : Loc nD τ sig) → Buf (Elt F) ℓ) (c : Dev nD) :
    Value.res_main_v100 m c
      = refAcc (padded (m ((c.tc : Thread nD τ).loc main_arg0))) (m ((c.tc : Thread nD τ).loc main_arg1)) := by
  unfold Value.res_main_v100
  rfl

end AnyFloat

/-! ## One tap's channel sum at an index (at the ideal values) -/

/-- The shifted input window spread over the output channels, at `(n, co, ci, i, j)`: the padded input at batch row `n`,
    channel `ci`, row `kh + i`, column `kw + j`. -/
theorem xside_apply (xp : FVec Ideal S16x64x30x30 .f32) (p : Tap) (n : Fin 16) (co ci : Fin 64) (i j : Fin 28) :
    broadcastInDim S16x64x64x28x28 ![0, 1, 2, 3, 4] bcast_S16x1x64x28x28_S16x64x64x28x28_0_1_2_3_4
        (broadcastInDim S16x1x64x28x28 ![0, 2, 3, 4] bcast_S16x64x28x28_S16x1x64x28x28_0_2_3_4
          (extractStridedSlice S16x64x28x28 (tapOff p) xp (slx p))) (ix5 n co ci i j : S16x64x64x28x28.Idx)
      = xp (ix4 n ci ⟨p.kh + i.val, by have := p.hkh; have := i.isLt; omega⟩ ⟨p.kw + j.val, by have := p.hkw; have := j.isLt; omega⟩) := by
  rw [broadcastInDim_apply _ _ _ (ix5 n co ci i j : S16x64x64x28x28.Idx) (ix5 n 0 ci i j : S16x1x64x28x28.Idx) (fun a => by
    match a with | ⟨0, _⟩ => rfl | ⟨1, _⟩ => rfl | ⟨2, _⟩ => rfl | ⟨3, _⟩ => rfl | ⟨4, _⟩ => rfl)]
  rw [broadcastInDim_apply _ _ _ (ix5 n 0 ci i j : S16x1x64x28x28.Idx) (ix4 n ci i j : S16x64x28x28.Idx) (fun a => by
    match a with | ⟨0, _⟩ => rfl | ⟨1, _⟩ => rfl | ⟨2, _⟩ => rfl | ⟨3, _⟩ => rfl)]
  exact extractStridedSlice_apply _ xp _ (ix4 n ci i j : S16x64x28x28.Idx) _ (fun a => by
    match a with
    | ⟨0, _⟩ => show n.val = 0 + n.val; omega
    | ⟨1, _⟩ => show ci.val = 0 + ci.val; omega
    | ⟨2, _⟩ => rfl
    | ⟨3, _⟩ => rfl)

/-- The tap's weights spread over the batch and the positions, at `(n, co, ci, i, j)`: the weight of output channel `co`,
    input channel `ci` at the tap's filter position. -/
theorem wside_apply (W : FVec Ideal S64x64x3x3 .f32) (p : Tap) (n : Fin 16) (co ci : Fin 64) (i j : Fin 28) :
    broadcastInDim S16x64x64x28x28 ![0, 1, 2, 3, 4] bcast_S1x64x64x1x1_S16x64x64x28x28_0_1_2_3_4
        (broadcastInDim S1x64x64x1x1 ![1, 2] bcast_S64x64_S1x64x64x1x1_1_2
          (shapeCast _ (extractStridedSlice S64x64x1x1 (tapOff p) W (slw p)) shapeCasts_S64x64x1x1_S64x64))
        (ix5 n co ci i j : S16x64x64x28x28.Idx)
      = W (ix4 co ci ⟨p.kh, by have := p.hkh; omega⟩ ⟨p.kw, by have := p.hkw; omega⟩) := by
  rw [broadcastInDim_apply _ _ _ (ix5 n co ci i j : S16x64x64x28x28.Idx) (ix5 0 co ci 0 0 : S1x64x64x1x1.Idx) (fun a => by
    match a with | ⟨0, _⟩ => rfl | ⟨1, _⟩ => rfl | ⟨2, _⟩ => rfl | ⟨3, _⟩ => rfl | ⟨4, _⟩ => rfl)]
  rw [broadcastInDim_apply _ _ _ (ix5 0 co ci 0 0 : S1x64x64x1x1.Idx) (ix2 co ci : S64x64.Idx) (fun a => by
    match a with | ⟨0, _⟩ => rfl | ⟨1, _⟩ => rfl)]
  rw [shapeCast_apply _ _ (ix2 co ci : S64x64.Idx) (ix4 co ci 0 0 : S64x64x1x1.Idx) (by
    rw [Shape.rowMajor_val_two, Shape.rowMajor_val_four]
    show ((co.val * 64 + ci.val) * 1 + 0) * 1 + 0 = co.val * 64 + ci.val
    omega)]
  exact extractStridedSlice_apply _ W _ (ix4 co ci 0 0 : S64x64x1x1.Idx) _ (fun a => by
    match a with
    | ⟨0, _⟩ => show co.val = 0 + co.val; omega
    | ⟨1, _⟩ => show ci.val = 0 + ci.val; omega
    | ⟨2, _⟩ => rfl
    | ⟨3, _⟩ => rfl)

theorem reduces_channels : S16x64x64x28x28.Reduces [2] S16x64x28x28 := by decide

/-- One tap's channel sum at `(n, co, i, j)`: from zero, the sum over the input channels of the tap's distances there. -/
theorem refTap_apply (xp : FVec Ideal S16x64x30x30 .f32) (W : FVec Ideal S64x64x3x3 .f32) (p : Tap)
    (n : Fin 16) (co : Fin 64) (i j : Fin 28) :
    refTap xp W (tapOff p) (slx p) (slw p) (ix4 n co i j)
      = 0 + ∑ ci : Fin 64, term (fun ci a b => xp (ix4 n ci a b)) (fun ci a b => W (ix4 co ci a b)) i j p ci := by
  unfold refTap
  rw [hostReduceAdd_apply]
  refine (Ideal.hostReduceAdd_single reducesTo_S16x64x64x28x28_S16x64x28x28_d2 reduces_channels _ _ _).trans ?_
  congr 1
  · exact Ideal.ofBits_zero_f32
  · show (∑ ci : Fin 64, _) = _
    refine Finset.sum_congr rfl fun ci _ => ?_
    have hq : reduces_channels.lift (ix4 n co i j) ci = (ix5 n co ci i j : S16x64x64x28x28.Idx) := by
      funext a; apply Fin.ext
      match a with | ⟨0, _⟩ => rfl | ⟨1, _⟩ => rfl | ⟨2, _⟩ => rfl | ⟨3, _⟩ => rfl | ⟨4, _⟩ => rfl
    rw [hq]
    show FloatOps.hostAbsf (FloatOps.subf _ _) = _
    rw [xside_apply xp p n co ci i j, wside_apply W p n co ci i j]
    rfl

/-- THE REFERENCE'S RESULT at an index is `Cert.Adder.adder` of the padded input and the weights there. -/
theorem refAcc_eq (xp : FVec Ideal S16x64x30x30 .f32) (W : FVec Ideal S64x64x3x3 .f32) :
    refAcc xp W = adder xp W := by
  funext y
  obtain ⟨n, co, i, j, rfl⟩ : ∃ (n : Fin 16) (co : Fin 64) (i j : Fin 28), y = ix4 n co i j :=
    ⟨y 0, y 1, y 2, y 3, eq_ix4 y⟩
  unfold refAcc adder
  rw [foldl_subf_apply, ← accR_eq_accK]
  unfold accR
  have h0 : (broadcastInDim S16x64x28x28 ![] bcast_S_S16x64x28x28 (constant (F := Ideal) S_ .f32 0x00000000#32)) (ix4 n co i j) = 0 := by
    rw [broadcastInDim_scalar_apply]
    exact Ideal.ofBits_zero_f32
  rw [h0]
  congr 1
  funext acc p
  congr 1
  exact refTap_apply xp W p n co i j

/-! ## The run, read -/

/-- Every weakly fair execution of the reference terminates with its result at `Cert.Adder.adder` of the padded first
    argument and the second argument, and the arguments unchanged: the generated run, its term read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v100)
          = adder (padded (F := Ideal) (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((res_eq m c).trans (refAcc_eq _ _)), (h c).2⟩)
    (Value.run (F := Ideal) m ρ)

end Cert.ReferenceIdeal.Conv

end
-- ==== Proof.lean ====
/-
  The certificate of the L1-distance ("adder") convolution kernel against its jnp reference.

  Both programs compute, for batch row `n`, output channel `co` and position `(i, j)`,
      out[n, co, i, j] = 0 - Σ over the nine taps (kh, kw), one after the other, of
                             Σ over the 64 input channels ci of |xpad[n, ci, kh + i, kw + j] - W[co, ci, kh, kw]|,
  where `xpad` is the input with a zero border of width one. The kernel works tile by tile (one batch row and 32 output
  channels per grid point) and subtracts each tap's channel sum in four runs of 16 channels; the reference subtracts each
  tap's whole 64-channel sum at once. The two agree on the extended reals because every distance is non-negative
  (Proof/AdderAlgebra.lean); the kernel's array is read off its frame run tile by tile (Proof/KernelTile.lean,
  Proof/KernelArray.lean), the reference's off its run (Proof/ReferenceArray.lean). The pass that idealizes the kernel
  rewrote nothing, so `preserves` is trivial; the precondition (finite inputs) is not used.
-/
import proofs.«164215_j65867618451686_1_alg».proof.Defs
import proofs.«164215_j65867618451686_1_alg».proof.Proof.Gen.Kernel
import proofs.«164215_j65867618451686_1_alg».proof.Proof.Gen.Kernel.Skeleton
import proofs.«164215_j65867618451686_1_alg».proof.Proof.Gen.Kernel.Launch
import proofs.«164215_j65867618451686_1_alg».proof.Proof.Gen.Kernel.Points
import proofs.«164215_j65867618451686_1_alg».proof.Proof.Gen.Kernel.Frame
import proofs.«164215_j65867618451686_1_alg».proof.Proof.Gen.KernelIdeal
import proofs.«164215_j65867618451686_1_alg».proof.Proof.Gen.KernelIdeal.Skeleton
import proofs.«164215_j65867618451686_1_alg».proof.Proof.Gen.KernelIdeal.Launch
import proofs.«164215_j65867618451686_1_alg».proof.Proof.Gen.KernelIdeal.Points
import proofs.«164215_j65867618451686_1_alg».proof.Proof.Gen.KernelIdeal.Frame
import proofs.«164215_j65867618451686_1_alg».proof.Proof.Gen.ReferenceIdeal
import proofs.«164215_j65867618451686_1_alg».proof.Proof.Gen.ReferenceIdeal.Run
import proofs.«164215_j65867618451686_1_alg».proof.Proof.Gen.Pre_finite_inputs
import proofs.«164215_j65867618451686_1_alg».proof.Proof.AdderAlgebra
import proofs.«164215_j65867618451686_1_alg».proof.Proof.KernelTile
import proofs.«164215_j65867618451686_1_alg».proof.Proof.KernelArray
import proofs.«164215_j65867618451686_1_alg».proof.Proof.ReferenceArray
import Idealize.ShloMosaic.Adequacy
import Idealize.ShloMosaic.Init

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the output at the same function of the arguments: the kernel's at `adder` of its padded first
    argument and its second, the reference's at `adder` of its own, and the arguments agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Conv.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
